-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S640000x128 .f32) (main_arg2 : IVec S640000 32) (main_arg3 : IVec S640000 32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S1x128 : Shape := ⟨2, ![1, 128]⟩
abbrev S8000x128 : Shape := ⟨2, ![8000, 128]⟩
abbrev S2000x128 : Shape := ⟨2, ![2000, 128]⟩
abbrev S2000x1 : Shape := ⟨2, ![2000, 1]⟩

abbrev nBuf : Space → Nat
  | .hbm => 58
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S100000, .f32⟩
  | .hbm, ⟨12, _⟩ => ⟨S640000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S_, .f32⟩
  | .hbm, ⟨45, _⟩ => ⟨S100000x128, .f32⟩
  | .hbm, ⟨46, _⟩ => ⟨S640000x1, .i32⟩
  | .hbm, ⟨47, _⟩ => ⟨S100000x128, .f32⟩
  | .hbm, ⟨48, _⟩ => ⟨S1x128, .f32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S100000x1, .f32⟩
  | .hbm, ⟨55, _⟩ => ⟨S100000x1, .f32⟩
  | .hbm, ⟨56, _⟩ => ⟨S1x128, .f32⟩
  | .hbm, ⟨57, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S8000x128_S128x128_S8000x128_1_0_0_1_n_n_wf : DotDims.WF S8000x128 S128x128 S8000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S640000x128.size a
  hwx0_3 : ∀ i : grid0.Coords, EltTy.bits .f32 = 32 ∨ (Rect.block (s := S640000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S100000, .f32⟩
  | .hbm, ⟨12, _⟩ => ⟨S640000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S_, .f32⟩
  | .hbm, ⟨45, _⟩ => ⟨S100000x128, .f32⟩
  | .hbm, ⟨46, _⟩ => ⟨S640000x1, .i32⟩
  | .hbm, ⟨47, _⟩ => ⟨S100000x128, .f32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S640000x128, .f32⟩
  | .hbm, ⟨67, _⟩ => ⟨S1x128, .f32⟩
  | .hbm, ⟨68, _⟩ => ⟨S640000x128, .f32⟩
  | .hbm, ⟨69, _⟩ => ⟨S640000x128, .f32⟩
  | .hbm, ⟨70, _⟩ => ⟨S_, .f32⟩
  | .hbm, ⟨71, _⟩ => ⟨S100000x128, .f32⟩
  | .hbm, ⟨72, _⟩ => ⟨S640000x1, .i32⟩
  | .hbm, ⟨73, _⟩ => ⟨S100000x128, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S640000x128_0_1 : S1x128.BroadcastsInDim S640000x128 (![0, 1] : Fin 2 → Fin S640000x128.rank)
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  dot_S640000x128_S128x128_S640000x128_1_0_0_1_n_n_wf : DotDims.WF S640000x128 S128x128 S640000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.HostValues.lean ====
/-
  What the host lines of the idealized kernel program leave in the buffers its two pallas_calls read.

  The program computes, on the host, the in-degree and out-degree counts (two scatter-adds of ones), their clipped
  inverse square roots, the source-scaled node features gathered along the edges and scatter-added into the
  destination rows (the aggregate); then the first pallas_call (the edge linear map); then the scatter-add of its
  result into the destination rows; then the second pallas_call (the node combine). Every host line up to the
  aggregate is, operation for operation, a line of the reference program, so each buffer's contents is stated as the
  reference's stage function of the same name applied to the launch contents of the arguments: the two programs'
  host chains are never opened, only matched.
-/
import proofs.«166695_j6605659701694_1_alg».proof.Proof.Gen.KernelIdeal.Frame
import proofs.«166695_j6605659701694_1_alg».proof.Proof.Gen.ReferenceIdeal.Read
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.HostValues

open Cert.KernelIdeal Cert.KernelIdeal.Gen

variable {F : FTy → Type} [FloatOps F]
variable (m : (ℓ : Loc nD τ sig) → Buf (Elt F) ℓ) (ρ : Dev nD → PrngReg)

/-! ## At the first pallas_call's entry -/

/-- The edge features are as launched. -/
theorem entry0_efeat (c : Dev nD) : V5 m ρ c main_arg1 = m ((c : Thread nD τ).loc main_arg1) := by
  show W5 m ρ c (Proc.devRef .tc main_arg1) = _
  after_results_simp <;> rfl

/-- The edge weight matrix is as launched. -/
theorem entry0_We (c : Dev nD) : V5 m ρ c main_arg6 = m ((c : Thread nD τ).loc main_arg6) := by
  show W5 m ρ c (Proc.devRef .tc main_arg6) = _
  after_results_simp <;> rfl

/-- The edge bias, re-laid as one row. -/
theorem entry0_be (c : Dev nD) :
    (V5 m ρ c main_v26 : S1x128.Idx → Elt F .f32) = shapeCast S1x128 (m ((c : Thread nD τ).loc main_arg7)) shapeCasts_S128_S1x128 := by
  show W5 m ρ c (Proc.devRef .tc main_v26) = _
  after_results_simp
  rfl

/-! ## At the second pallas_call's entry -/

/-- The node features are as launched. -/
theorem entry1_nfeat (c : Dev nD) : V7 m ρ c main_arg0 = m ((c : Thread nD τ).loc main_arg0) := by
  show W7 m ρ c (Proc.devRef .tc main_arg0) = _
  after_results_simp
  rw [W6_of_ne m ρ c main_arg0 (by decide)]
  after_results_simp <;> rfl

/-- The node weight matrix is as launched. -/
theorem entry1_W (c : Dev nD) : V7 m ρ c main_arg4 = m ((c : Thread nD τ).loc main_arg4) := by
  show W7 m ρ c (Proc.devRef .tc main_arg4) = _
  after_results_simp
  rw [W6_of_ne m ρ c main_arg4 (by decide)]
  after_results_simp <;> rfl

set_option maxHeartbeats 4000000 in
/-- The aggregate: the reference's stage of the same name, of the node features and the two index vectors. -/
theorem entry1_agg (c : Dev nD) :
    (V7 m ρ c main_v25 : S100000x128.Idx → Elt F .f32)
      = Cert.ReferenceIdeal.Read.val_main_v25 (F := F) (m ((c : Thread nD τ).loc main_arg0)) (m ((c : Thread nD τ).loc main_arg2)) (m ((c : Thread nD τ).loc main_arg3)) := by
  show W7 m ρ c (Proc.devRef .tc main_v25) = _
  after_results_simp
  rw [W6_of_ne m ρ c main_v25 (by decide)]
  after_results_simp
  rfl

set_option maxHeartbeats 4000000 in
/-- The destination scale (the clipped in-degree to the power -1/2), re-laid as a column. -/
theorem entry1_normdst (c : Dev nD) :
    (V7 m ρ c main_v31 : S100000x1.Idx → Elt F .f32)
      = shapeCast S100000x1 (Cert.ReferenceIdeal.Read.val_main_v12 (F := F) (m ((c : Thread nD τ).loc main_arg3))) shapeCasts_S100000_S100000x1 := by
  show W7 m ρ c (Proc.devRef .tc main_v31) = _
  after_results_simp
  rw [W6_of_ne m ρ c main_v12 (by decide)]
  after_results_simp
  rfl

set_option maxHeartbeats 4000000 in
/-- The in-degree, re-laid as a column. -/
theorem entry1_indeg (c : Dev nD) :
    (V7 m ρ c main_v32 : S100000x1.Idx → Elt F .f32)
      = shapeCast S100000x1 (Cert.ReferenceIdeal.Read.val_main_v3 (F := F) (m ((c : Thread nD τ).loc main_arg3))) shapeCasts_S100000_S100000x1 := by
  show W7 m ρ c (Proc.devRef .tc main_v32) = _
  after_results_simp
  rw [W6_of_ne m ρ c main_v3 (by decide)]
  after_results_simp
  rfl

/-- The node bias, re-laid as one row. -/
theorem entry1_b (c : Dev nD) :
    (V7 m ρ c main_v33 : S1x128.Idx → Elt F .f32) = shapeCast S1x128 (m ((c : Thread nD τ).loc main_arg5)) shapeCasts_S128_S1x128 := by
  show W7 m ρ c (Proc.devRef .tc main_v33) = _
  after_results_simp
  rw [W6_of_ne m ρ c main_arg5 (by decide)]
  after_results_simp
  rfl

set_option maxHeartbeats 4000000 in
/-- The edge sum: the scatter-add, into the destination rows, of what the first pallas_call left in its result array.
    When that array is the reference's edge linear map, the edge sum is the reference's stage of the same name. -/
theorem entry1_esum (c : Dev nD)
    (hE : ((dat0 (V5 m ρ) c).arrAt 3 cfg0.N : S640000x128.Idx → Elt F .f32)
      = Cert.ReferenceIdeal.Read.val_main_v46 (F := F) (m ((c : Thread nD τ).loc main_arg1)) (m ((c : Thread nD τ).loc main_arg6)) (m ((c : Thread nD τ).loc main_arg7))) :
    (V7 m ρ c main_v30 : S100000x128.Idx → Elt F .f32)
      = Cert.ReferenceIdeal.Read.val_main_v49 (F := F) (m ((c : Thread nD τ).loc main_arg1)) (m ((c : Thread nD τ).loc main_arg3)) (m ((c : Thread nD τ).loc main_arg6)) (m ((c : Thread nD τ).loc main_arg7)) := by
  show W7 m ρ c (Proc.devRef .tc main_v30) = _
  after_results_simp
  rw [W6_of_ne m ρ c main_arg3 (by decide), show W6 m ρ c (Proc.devRef .tc main_v27) = (dat0 (V5 m ρ) c).arrAt 3 cfg0.N from W6_arr m ρ c 3, hE]
  after_results_simp
  rfl

end Cert.KernelIdeal.HostValues

end
-- ==== Proof.LibDotRows.lean ====
import Idealize.ShloMosaic.PureOps.Ideal.Laws
import Idealize.ShloMosaic.Lib.ValueIdx

/-!
# A rows-by-columns contraction read at an index

For a product of an `R × K` array with a `K × J` array (one contracted axis, no batch axis: the left operand's
axis 1 against the right operand's axis 0) the sum over the contraction index at output position `(p, j)` is the
plain sum over `k : Fin K` of `a (p, k) * b (k, j)`. Stated once for every extent, and then for the two
operations that are this sum over the extended reals: a matrix product accumulated into the zero splat, and a
`dot_general`.
-/

noncomputable section

namespace Cert.Lib.DotRows

open Idealize.ShloMosaic Idealize.ShloMosaic.ValueIdx

variable {R K J : ℕ}

/-- The contraction index of a rows-by-columns product is the one coordinate `k`: the left operand is read at
    `(p, k)`, the right at `(k, j)`. -/
theorem contr_sum (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = [])
    (a : (⟨2, ![R, K]⟩ : Shape).Idx → EReal) (b : (⟨2, ![K, J]⟩ : Shape).Idx → EReal) (p : Fin R) (j : Fin J) :
    ∑ q : d.contr.Idx, a (d.lhsIdx (ix2 p j) q) * b (d.rhsIdx (ix2 p j) q) = ∑ k : Fin K, a (ix2 p k) * b (ix2 k j) := by
  obtain ⟨lc, rc, ln, rn, lb, rb, wf⟩ := d
  dsimp only at h1 h2 h3 h4 h5 h6
  subst h1 h2 h3 h4 h5 h6
  rw [← Equiv.sum_comp (contrEquiv1 _ K rfl rfl).symm]
  refine Finset.sum_congr rfl fun k _ => ?_
  have hk := contrEquiv1_symm_val (⟨[1], [0], [0], [1], [], [], wf⟩ : DotDims ⟨2, ![R, K]⟩ ⟨2, ![K, J]⟩ ⟨2, ![R, J]⟩) K rfl rfl k
  have el : (⟨[1], [0], [0], [1], [], [], wf⟩ : DotDims ⟨2, ![R, K]⟩ ⟨2, ![K, J]⟩ ⟨2, ![R, J]⟩).lhsIdx (ix2 p j)
      ((contrEquiv1 _ K rfl rfl).symm k) = ix2 p k := funext fun x => Fin.ext (by
    match x with
    | ⟨0, _⟩ => rfl
    | ⟨1, _⟩ => exact (rfl : _ = _).trans hk)
  have er : (⟨[1], [0], [0], [1], [], [], wf⟩ : DotDims ⟨2, ![R, K]⟩ ⟨2, ![K, J]⟩ ⟨2, ![R, J]⟩).rhsIdx (ix2 p j)
      ((contrEquiv1 _ K rfl rfl).symm k) = ix2 k j := funext fun x => Fin.ext (by
    match x with
    | ⟨0, _⟩ => exact (rfl : _ = _).trans hk
    | ⟨1, _⟩ => rfl)
  rw [el, er]

/-- A matrix product into the zero accumulator, over the extended reals, at `(p, j)`: the sum over `k`. -/
theorem matmul_rows {φ₁ φ₂ : FTy} (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (a : FVec Ideal ⟨2, ![R, K]⟩ φ₁) (b : FVec Ideal ⟨2, ![K, J]⟩ φ₂) (p : Fin R) (j : Fin J) :
    FloatOps.matmul d prec a b (constant ⟨2, ![R, J]⟩ .f32 0x00000000#32) (ix2 p j) = ∑ k : Fin K, a (ix2 p k) * b (ix2 k j) :=
  (Ideal.matmul_constant_zero_apply d prec a b (ix2 p j)).trans (contr_sum d h1 h2 h3 h4 h5 h6 a b p j)

/-- A `dot_general` of the same dimension numbers, over the extended reals, at `(p, j)`: the same sum. -/
theorem dotGeneral_rows {φ₁ φ₂ : FTy} (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (sched : HostSchedule) (a : FVec Ideal ⟨2, ![R, K]⟩ φ₁) (b : FVec Ideal ⟨2, ![K, J]⟩ φ₂) (p : Fin R) (j : Fin J) :
    FloatOps.dotGeneral d prec sched a b (ix2 p j) = ∑ k : Fin K, a (ix2 p k) * b (ix2 k j) :=
  (Ideal.dotGeneral_apply d prec sched a b (ix2 p j)).trans (contr_sum d h1 h2 h3 h4 h5 h6 a b p j)

end Cert.Lib.DotRows

end
-- ==== Proof.EdgeLinear.lean ====
/-
  The first pallas_call, the edge linear map: its result array after the run is the reference's
  `efeat @ We + be`, entry by entry.

  At grid point `t` the body loads rows `8000 t … 8000 t + 7999` of the edge features, the whole weight matrix and
  the bias row, and stores the matrix product of the block with the weights plus the bias row spread over the block's
  rows. Over the extended reals a product into the zero accumulator is the plain sum over the contracted index, a
  change of float format is the identity, and so entry `(p, j)` of the stored block is
  `∑ k, efeat (8000 t + p, k) · We (k, j) + be j`: entry `(8000 t + p, j)` of the reference's array. The eighty
  blocks tile the array's rows, so the array ends holding the reference's array.
-/
import proofs.«166695_j6605659701694_1_alg».proof.Proof.Gen.KernelIdeal.Frame
import proofs.«166695_j6605659701694_1_alg».proof.Proof.Gen.ReferenceIdeal.Read
import proofs.«166695_j6605659701694_1_alg».proof.Proof.LibDotRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.EdgeLinear

open Cert.KernelIdeal Cert.KernelIdeal.Gen

theorem zero_offsets : (![0, 0] : Fin 2 → Nat) = fun _ => 0 := funext fun a => by fin_cases a <;> rfl

/-- The body's stored value at `(p, j)`: row `p` of the loaded block against column `j` of the weights, plus the
    bias at `j`. -/
theorem stored_apply (b0 : Vec Ideal S8000x128 .f32) (b1 : Vec Ideal S128x128 .f32) (b2 : Vec Ideal S1x128 .f32)
    (p : Fin 8000) (j : Fin 128) :
    k0_pay1 (F := Ideal) b0 b1 b2 (ix2 p j) = (∑ k : Fin 128, b0 (ix2 p k) * b1 (ix2 k j)) + b2 (ix2 (0 : Fin 1) j) := by
  unfold k0_pay1
  refine congrArg₂ (· + ·) ?_ ?_
  · exact Cert.Lib.DotRows.matmul_rows dot_S8000x128_S128x128_S8000x128_1_0_0_1_n_n rfl rfl rfl rfl rfl rfl none _ _ p j
  · exact (broadcastTo_1b_ab_apply _ _ p j).trans (congrFun (shapeCast_self b2 _) _)

/-- The reference's edge linear map at `(r, j)`: row `r` of the edge features against column `j` of the weights,
    plus the bias at `j`. -/
theorem reference_apply (x1 : (⟨Cert.ReferenceIdeal.S640000x128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) (r : Fin 640000) (j : Fin 128) :
    Cert.ReferenceIdeal.Read.val_main_v46 (F := Ideal) x1 x6 x7 (ix2 r j)
      = (∑ k : Fin 128, x1 (ix2 r k) * x6 (ix2 k j)) + x7 (ix1 j) := by
  rw [Cert.ReferenceIdeal.Read.val_main_v46_apply, Cert.ReferenceIdeal.Read.val_main_v43_apply,
    Cert.ReferenceIdeal.Read.val_main_v45_apply, Cert.ReferenceIdeal.Read.val_main_v44_apply]
  have el : ∀ k : Fin 128, Cert.ReferenceIdeal.Read.lidx_main_v43 (ix2 r j) k = ix2 r k := fun k =>
    funext fun a => by match a with | ⟨0, _⟩ => rfl | ⟨1, _⟩ => rfl
  have er : ∀ k : Fin 128, Cert.ReferenceIdeal.Read.ridx_main_v43 (ix2 r j) k = ix2 k j := fun k =>
    funext fun a => by match a with | ⟨0, _⟩ => rfl | ⟨1, _⟩ => rfl
  have eb : Cert.ReferenceIdeal.Read.idx_main_v44 (Cert.ReferenceIdeal.Read.idx_main_v45 (ix2 r j)) = ix1 j :=
    funext fun a => by match a with | ⟨0, _⟩ => rfl
  simp only [el, er, eb]
  rfl

variable (V : (c : Dev nD) → (b : Ref sig .tc) → Buf (Elt Ideal) ((c : Thread nD τ).loc b))

/-- The windows' block indices at point `t`: the edge features and the result move down the rows with `t`, the
    weights and the bias stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The edge features' block at point `t` holds rows `8000 t …` of the array. -/
theorem efeat_block (c : Dev nD) (t : Fin cfg0.N) (p : Fin 8000) (k : Fin 128) (i : S640000x128.Idx)
    (h0 : (i 0).val = t.val * 8000 + p.val) (h1 : (i 1).val = k.val) :
    (iblk0 V c 0 t : Vec Ideal S8000x128 .f32) (ix2 p k) = (V c main_arg1 : S640000x128.Idx → Elt Ideal .f32) i := by
  obtain ⟨e0, e1, -⟩ := block_indices t
  unfold iblk0
  rw [View.read_apply]
  show V c main_arg1 _ = V c main_arg1 _
  refine congrArg _ (funext fun a => Fin.ext ?_)
  match a with
  | ⟨0, _⟩ => show win0_0.index t (0 : Fin 2) * 8000 + 1 * p.val = (i 0).val; rw [e0, h0]; omega
  | ⟨1, _⟩ => show win0_0.index t (1 : Fin 2) * 128 + 1 * k.val = (i 1).val; rw [e1, h1]; omega

/-- The weights' block is the whole matrix at every point. -/
theorem We_block (c : Dev nD) (t : Fin cfg0.N) (k j : Fin 128) :
    (iblk0 V c 1 t : Vec Ideal S128x128 .f32) (ix2 k j) = (V c main_arg6 : S128x128.Idx → Elt Ideal .f32) (ix2 k j) := by
  obtain ⟨-, -, e0, e1, -⟩ := block_indices t
  unfold iblk0
  rw [View.read_apply]
  show V c main_arg6 _ = V c main_arg6 _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- The bias's block is the whole row at every point. -/
theorem be_block (c : Dev nD) (t : Fin cfg0.N) (j : Fin 128) :
    (iblk0 V c 2 t : Vec Ideal S1x128 .f32) (ix2 (0 : Fin 1) j) = (V c main_v26 : S1x128.Idx → Elt Ideal .f32) (ix2 (0 : Fin 1) j) := by
  obtain ⟨-, -, -, -, e0, e1, -⟩ := block_indices t
  unfold iblk0
  rw [View.read_apply]
  show V c main_v26 _ = V c main_v26 _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * j.val = j.val; rw [e1]; omega

section Array

variable (c : Dev nD) (x1 : (⟨Cert.ReferenceIdeal.S640000x128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (h1 : (V c main_arg1 : S640000x128.Idx → Elt Ideal .f32) = x1)
  (h6 : (V c main_arg6 : S128x128.Idx → Elt Ideal .f32) = x6)
  (h7 : (V c main_v26 : S1x128.Idx → Elt Ideal .f32) = shapeCast S1x128 x7 shapeCasts_S128_S1x128)

include h1 h6 h7 in
/-- Entry `(p, q)` of what the body stores at point `t` is entry `(8000 t + p, q)` of the reference's array. -/
theorem stored_entry (t : Fin cfg0.N) (p : Fin 8000) (q : Fin 128) (r : Fin 640000) (hr : r.val = t.val * 8000 + p.val) :
    k0_pay1 (F := Ideal) (iblk0 V c 0 t) (iblk0 V c 1 t) (iblk0 V c 2 t) (ix2 p q)
      = Cert.ReferenceIdeal.Read.val_main_v46 (F := Ideal) x1 x6 x7 (ix2 r q) := by
  rw [stored_apply, reference_apply]
  refine congrArg₂ (· + ·) (Finset.sum_congr rfl fun k _ => congrArg₂ (· * ·) ?_ ?_) ?_
  · rw [efeat_block V c t p k (ix2 r k) hr rfl, h1]
  · rw [We_block V c t k q, h6]
  · rw [be_block V c t q, h7]
    exact shapeCast_a_1a_apply x7 _ (0 : Fin 1) q

include h1 h6 h7 in
/-- What point `t` writes back is block `t` of the reference's array. -/
theorem written_back (t : Fin cfg0.N) :
    (dat0 V c).flushed 3 t
      = ((cfg0.win 3).blk t).view.read (Elt Ideal) (Cert.ReferenceIdeal.Read.val_main_v46 (F := Ideal) x1 x6 x7) := by
  show (cfg0.win 3).cut (grid0.coords t) ((dat0 V c).after 3 t) = _
  rw [after0_3]
  unfold out0_3
  rw [View.canon_unit_zero zero_offsets]
  simp only [View.ld_unit_zero (S := S8000x128) zero_offsets, View.ld_unit_zero (S := S128x128) zero_offsets,
    View.ld_unit_zero (S := S1x128) zero_offsets]
  funext y
  rw [View.read_apply]
  obtain ⟨-, -, -, -, -, -, e0, e1⟩ := block_indices t
  have hN : cfg0.N = 80 := N_0
  have ht : t.val < 80 := hN ▸ t.isLt
  -- the entry's place in the block and in the array
  have hp : (y 0).val < 8000 := (win0_3.xinj (grid0.coords t) y 0).isLt
  have hq : (y 1).val < 128 := (win0_3.xinj (grid0.coords t) y 1).isLt
  have hy : (win0_3.xinj (grid0.coords t) y : S8000x128.Idx) = ix2 (⟨(y 0).val, hp⟩ : Fin 8000) (⟨(y 1).val, hq⟩ : Fin 128) :=
    funext fun a => by match a with | ⟨0, _⟩ => rfl | ⟨1, _⟩ => rfl
  have hi : (((cfg0.win 3).blk t).view.emb y : S640000x128.Idx)
      = ix2 (⟨t.val * 8000 + (y 0).val, by omega⟩ : Fin 640000) (⟨(y 1).val, hq⟩ : Fin 128) :=
    funext fun a => Fin.ext (by
      match a with
      | ⟨0, _⟩ => show win0_3.index t (0 : Fin 2) * 8000 + 1 * (y 0).val = t.val * 8000 + (y 0).val; rw [e0]; omega
      | ⟨1, _⟩ => show win0_3.index t (1 : Fin 2) * 128 + 1 * (y 1).val = (y 1).val; rw [e1]; omega)
  show k0_pay1 (F := Ideal) (iblk0 V c 0 t) (iblk0 V c 1 t) (iblk0 V c 2 t) (win0_3.xinj (grid0.coords t) y)
    = Cert.ReferenceIdeal.Read.val_main_v46 (F := Ideal) x1 x6 x7 (((cfg0.win 3).blk t).view.emb y : S640000x128.Idx)
  exact (congrArg _ hy).trans ((stored_entry V c x1 x6 x7 h1 h6 h7 t _ _ _ rfl).trans
    (congrArg (Cert.ReferenceIdeal.Read.val_main_v46 (F := Ideal) x1 x6 x7) hi.symm))

/-- Every row of the array lies in the block of the point `row / 8000`. -/
theorem rows_covered (i : ((cfg0.win 3).arr.view.loc (c.tc : Thread nD τ)).2.ty.Idx) :
    ∃ t : Fin cfg0.N, (cfg0.win 3).flush t = true ∧ i ∈ ((cfg0.win 3).blk t).view.set := by
  have hi0 : (i 0 : Nat) < 640000 := (i 0).isLt
  have hi1 : (i 1 : Nat) < 128 := (i 1).isLt
  have hN : cfg0.N = 80 := N_0
  have hlt : (i 0 : Nat) / 8000 < cfg0.N := by rw [hN]; omega
  refine ⟨⟨(i 0 : Nat) / 8000, hlt⟩, flush0_3 _, ?_⟩
  obtain ⟨-, -, -, -, -, -, e0, e1⟩ := block_indices ⟨(i 0 : Nat) / 8000, hlt⟩
  show i ∈ ((View.whole main_v27).slice (win0_3.rect ⟨(i 0 : Nat) / 8000, hlt⟩)).set
  rw [View.set_slice_whole, Rect.mem_set_unit]
  intro a
  match a with
  | ⟨0, _⟩ =>
    show win0_3.index ⟨(i 0 : Nat) / 8000, hlt⟩ (0 : Fin 2) * 8000 ≤ (i 0 : Nat) ∧ (i 0 : Nat) < win0_3.index ⟨(i 0 : Nat) / 8000, hlt⟩ (0 : Fin 2) * 8000 + 8000
    rw [e0]; show (i 0 : Nat) / 8000 * 8000 ≤ (i 0 : Nat) ∧ (i 0 : Nat) < (i 0 : Nat) / 8000 * 8000 + 8000; omega
  | ⟨1, _⟩ =>
    show win0_3.index ⟨(i 0 : Nat) / 8000, hlt⟩ (1 : Fin 2) * 128 ≤ (i 1 : Nat) ∧ (i 1 : Nat) < win0_3.index ⟨(i 0 : Nat) / 8000, hlt⟩ (1 : Fin 2) * 128 + 128
    rw [e1]; omega

include h1 h6 h7 in
/-- The result array after the first pallas_call: the reference's edge linear map of the region's operands. -/
theorem result_array :
    ((dat0 V c).arrAt 3 cfg0.N : S640000x128.Idx → Elt Ideal .f32)
      = Cert.ReferenceIdeal.Read.val_main_v46 (F := Ideal) x1 x6 x7 :=
  (dat0 V c).arrAt_eq_of_cover 3 (Cert.ReferenceIdeal.Read.val_main_v46 (F := Ideal) x1 x6 x7)
    (fun t _ => written_back V c x1 x6 x7 h1 h6 h7 t) (rows_covered c)

end Array

end Cert.KernelIdeal.EdgeLinear

end
-- ==== Proof.LibKeepdimsColumn.lean ====
/-
  The column forms of a keepdims reduction, read at an index given by coordinates.

  A row-wise reduction with `keepdims=True` leaves an `[a]` vector that the body first re-lays as a column `[a, 1]`
  and later spreads over the row's `b` lanes. Both steps move no data: the column holds entry `i` of the vector at
  `(i, 0)`, and the spread array holds at `(p, c)` the column's entry of row `p`, whatever the lane `c`.
  These are the two lemmas Lib/ValueLayout.lean has for the ROW forms (`[a] → [1, a]`, `[1, b] → [a, b]`) stated for the
  column forms, over indices written `ix1` / `ix2`.
-/
import Idealize.ShloMosaic.Lib.ValueIdx
import Idealize.ShloMosaic.Lib.Pipeline.Value

namespace Idealize.ShloMosaic.ValueIdx

open Idealize.ShloMosaic

variable {α : Type}

/-- An `[a]` array cast to `[a, 1]` reads, at `(i, u)`, the operand at `i`, whatever the unit coordinate `u`:
    the row-major position of `(i, u)` in `[a, 1]` is `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is
    read at `0`, the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.NodeCombine.lean ====
/-
  The second pallas_call, the node combine: its result array after the run is the reference's result, entry by entry.

  At grid point `t` the body loads rows `2000 t … 2000 t + 1999` of the node features, of the aggregate, of the edge
  sum, of the destination-scale column and of the in-degree column, the whole weight matrix and the bias row, and
  stores
    (agg·W)·scale + b  +  (x·W + b) / (deg + 1)  +  esum / max(1, deg)
  row by row. Over the extended reals each matrix product into the zero accumulator is the plain sum over the
  contracted index, a change of float format is the identity, and the kernel's quotient is the host's, so entry
  `(p, j)` of the stored block is entry `(2000 t + p, j)` of the reference's last stage, read through its own
  stages down to the four it shares with the kernel's host lines (the aggregate, the destination scale, the in-degree
  and the edge sum), which are never opened. The fifty blocks tile the array's rows.
-/
import proofs.«166695_j6605659701694_1_alg».proof.Proof.Gen.KernelIdeal.Frame
import proofs.«166695_j6605659701694_1_alg».proof.Proof.Gen.ReferenceIdeal.Read
import proofs.«166695_j6605659701694_1_alg».proof.Proof.LibDotRows
import proofs.«166695_j6605659701694_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.NodeCombine

open Cert.KernelIdeal Cert.KernelIdeal.Gen
open Cert.ReferenceIdeal.Read

theorem zero_offsets : (![0, 0] : Fin 2 → Nat) = fun _ => 0 := funext fun a => by fin_cases a <;> rfl

/-- The number one, as both programs spell it. -/
abbrev one : EReal := Ideal.ofBits .f32 0x3F800000#32

/-- The body's stored value at `(p, j)`, over its seven loaded blocks: the aggregate's row against the weights' column,
    scaled, plus the bias; the features' row against the same column plus the bias, over the in-degree plus one; the
    edge sum over the in-degree clipped below at one. -/
theorem stored_apply (v0 v2 : Vec Ideal S2000x128 .f32) (v5 : Vec Ideal S128x128 .f32) (v7 : Vec Ideal S1x128 .f32)
    (v9 v11 : Vec Ideal S2000x1 .f32) (v25 : Vec Ideal S2000x128 .f32) (p : Fin 2000) (j : Fin 128) :
    k1_pay1 (F := Ideal) v0 v2 v5 v7 v9 v11 v25 (ix2 p j)
      = (((∑ k : Fin 128, v2 (ix2 p k) * v5 (ix2 k j)) * v9 (ix2 p (0 : Fin 1)) + v7 (ix2 (0 : Fin 1) j))
          + Ideal.div ((∑ k : Fin 128, v0 (ix2 p k) * v5 (ix2 k j)) + v7 (ix2 (0 : Fin 1) j)) (v11 (ix2 p (0 : Fin 1)) + one))
        + Ideal.div (v25 (ix2 p j)) (max one (v11 (ix2 p (0 : Fin 1)))) := by
  unfold k1_pay1
  simp only [shapeCast_self]
  simp only [addf_apply, mulf_apply, divf_apply]
  dsimp only [matmul]
  rw [Cert.Lib.DotRows.matmul_rows dot_S2000x128_S128x128_S2000x128_1_0_0_1_n_n rfl rfl rfl rfl rfl rfl,
    Cert.Lib.DotRows.matmul_rows dot_S2000x128_S128x128_S2000x128_1_0_0_1_n_n rfl rfl rfl rfl rfl rfl,
    broadcastTo_a1_ab_apply, broadcastTo_a1_ab_apply, broadcastTo_a1_ab_apply, broadcastTo_1b_ab_apply]
  rfl

/-- The reference's last stage at `(r, j)`, read down to the aggregate, the destination scale, the in-degree and the
    edge sum. -/
theorem reference_apply (x0 : (⟨Cert.ReferenceIdeal.S100000x128, .f32⟩ : BufTy).Contents (Elt Ideal))
    (x1 : (⟨Cert.ReferenceIdeal.S640000x128, .f32⟩ : BufTy).Contents (Elt Ideal))
    (x2 x3 : (⟨Cert.ReferenceIdeal.S640000, .i32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) (r : Fin 100000) (j : Fin 128) :
    val_main_v54 (F := Ideal) x0 x1 x2 x3 x4 x5 x6 x7 (ix2 r j)
      = (((∑ k : Fin 128, val_main_v25 (F := Ideal) x0 x2 x3 (ix2 r k) * x4 (ix2 k j)) * val_main_v12 (F := Ideal) x3 (ix1 r) + x5 (ix1 j))
          + Ideal.div ((∑ k : Fin 128, x0 (ix2 r k) * x4 (ix2 k j)) + x5 (ix1 j)) (val_main_v3 (F := Ideal) x3 (ix1 r) + one))
        + Ideal.div (val_main_v49 (F := Ideal) x1 x3 x6 x7 (ix2 r j)) (max one (val_main_v3 (F := Ideal) x3 (ix1 r))) := by
  rw [val_main_v54_apply, val_main_v42_apply, val_main_v32_apply, val_main_v29_apply, val_main_v26_apply,
    val_main_v28_apply, val_main_v27_apply, val_main_v31_apply, val_main_v30_apply, val_main_v41_apply,
    val_main_v36_apply, val_main_v33_apply, val_main_v35_apply, val_main_v34_apply, val_main_v40_apply,
    val_main_v39_apply, val_main_v38_apply, val_main_v37_apply, val_main_cst_8_apply, val_main_v53_apply,
    val_main_v52_apply, val_main_v51_apply, val_main_v50_apply, val_main_call2_v1_apply, val_main_call2_v0_apply,
    val_main_cst_10_apply]
  have el26 : ∀ k : Fin 128, lidx_main_v26 (ix2 r j) k = ix2 r k := fun k =>
    funext fun a => by match a with | ⟨0, _⟩ => rfl | ⟨1, _⟩ => rfl
  have er26 : ∀ k : Fin 128, ridx_main_v26 (ix2 r j) k = ix2 k j := fun k =>
    funext fun a => by match a with | ⟨0, _⟩ => rfl | ⟨1, _⟩ => rfl
  have el33 : ∀ k : Fin 128, lidx_main_v33 (ix2 r j) k = ix2 r k := fun k =>
    funext fun a => by match a with | ⟨0, _⟩ => rfl | ⟨1, _⟩ => rfl
  have er33 : ∀ k : Fin 128, ridx_main_v33 (ix2 r j) k = ix2 k j := fun k =>
    funext fun a => by match a with | ⟨0, _⟩ => rfl | ⟨1, _⟩ => rfl
  have e28 : idx_main_v27 (idx_main_v28 (ix2 r j)) = ix1 r := funext fun a => by match a with | ⟨0, _⟩ => rfl
  have e31 : idx_main_v30 (idx_main_v31 (ix2 r j)) = ix1 j := funext fun a => by match a with | ⟨0, _⟩ => rfl
  have e35 : idx_main_v34 (idx_main_v35 (ix2 r j)) = ix1 j := funext fun a => by match a with | ⟨0, _⟩ => rfl
  have e40 : idx_main_v39 (idx_main_v40 (ix2 r j)) = ix1 r := funext fun a => by match a with | ⟨0, _⟩ => rfl
  have e52 : idx_main_v51 (idx_main_v52 (ix2 r j)) = ix1 r := funext fun a => by match a with | ⟨0, _⟩ => rfl
  simp only [el26, er26, el33, er33, e28, e31, e35, e40, e52]
  rfl

variable (V : (c : Dev nD) → (b : Ref sig .tc) → Buf (Elt Ideal) ((c : Thread nD τ).loc b))

/-- The windows' block indices at point `t`: the five row-blocked operands and the result move down the rows with
    `t`, the weights and the bias stay. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The node features' block at point `t` holds rows `2000 t …` of the array. -/
theorem nfeat_block (c : Dev nD) (t : Fin cfg1.N) (p : Fin 2000) (k : Fin 128) (i : S100000x128.Idx)
    (h0 : (i 0).val = t.val * 2000 + p.val) (h1 : (i 1).val = k.val) :
    (iblk1 V c 0 t : Vec Ideal S2000x128 .f32) (ix2 p k) = (V c main_arg0 : S100000x128.Idx → Elt Ideal .f32) i := by
  obtain ⟨e0, e1, -⟩ := block_indices t
  unfold iblk1
  rw [View.read_apply]
  show V c main_arg0 _ = V c main_arg0 _
  refine congrArg _ (funext fun a => Fin.ext ?_)
  match a with
  | ⟨0, _⟩ => show win1_0.index t (0 : Fin 2) * 2000 + 1 * p.val = (i 0).val; rw [e0, h0]; omega
  | ⟨1, _⟩ => show win1_0.index t (1 : Fin 2) * 128 + 1 * k.val = (i 1).val; rw [e1, h1]; omega

/-- The aggregate's block at point `t` holds rows `2000 t …` of the array. -/
theorem agg_block (c : Dev nD) (t : Fin cfg1.N) (p : Fin 2000) (k : Fin 128) (i : S100000x128.Idx)
    (h0 : (i 0).val = t.val * 2000 + p.val) (h1 : (i 1).val = k.val) :
    (iblk1 V c 1 t : Vec Ideal S2000x128 .f32) (ix2 p k) = (V c main_v25 : S100000x128.Idx → Elt Ideal .f32) i := by
  obtain ⟨-, -, e0, e1, -⟩ := block_indices t
  unfold iblk1
  rw [View.read_apply]
  show V c main_v25 _ = V c main_v25 _
  refine congrArg _ (funext fun a => Fin.ext ?_)
  match a with
  | ⟨0, _⟩ => show win1_1.index t (0 : Fin 2) * 2000 + 1 * p.val = (i 0).val; rw [e0, h0]; omega
  | ⟨1, _⟩ => show win1_1.index t (1 : Fin 2) * 128 + 1 * k.val = (i 1).val; rw [e1, h1]; omega

/-- The edge sum's block at point `t` holds rows `2000 t …` of the array. -/
theorem esum_block (c : Dev nD) (t : Fin cfg1.N) (p : Fin 2000) (k : Fin 128) (i : S100000x128.Idx)
    (h0 : (i 0).val = t.val * 2000 + p.val) (h1 : (i 1).val = k.val) :
    (iblk1 V c 2 t : Vec Ideal S2000x128 .f32) (ix2 p k) = (V c main_v30 : S100000x128.Idx → Elt Ideal .f32) i := by
  obtain ⟨-, -, -, -, e0, e1, -⟩ := block_indices t
  unfold iblk1
  rw [View.read_apply]
  show V c main_v30 _ = V c main_v30 _
  refine congrArg _ (funext fun a => Fin.ext ?_)
  match a with
  | ⟨0, _⟩ => show win1_2.index t (0 : Fin 2) * 2000 + 1 * p.val = (i 0).val; rw [e0, h0]; omega
  | ⟨1, _⟩ => show win1_2.index t (1 : Fin 2) * 128 + 1 * k.val = (i 1).val; rw [e1, h1]; omega

/-- The destination-scale column's block at point `t` holds rows `2000 t …` of the column. -/
theorem scale_block (c : Dev nD) (t : Fin cfg1.N) (p : Fin 2000) (r : Fin 100000) (hr : r.val = t.val * 2000 + p.val) :
    (iblk1 V c 3 t : Vec Ideal S2000x1 .f32) (ix2 p (0 : Fin 1))
      = (V c main_v31 : S100000x1.Idx → Elt Ideal .f32) (ix2 r (0 : Fin 1)) := by
  obtain ⟨-, -, -, -, -, -, e0, e1, -⟩ := block_indices t
  unfold iblk1
  rw [View.read_apply]
  show V c main_v31 _ = V c main_v31 _
  refine congrArg _ (funext fun a => Fin.ext ?_)
  match a with
  | ⟨0, _⟩ => show win1_3.index t (0 : Fin 2) * 2000 + 1 * p.val = r.val; rw [e0, hr]; omega
  | ⟨1, _⟩ => show win1_3.index t (1 : Fin 2) * 1 + 1 * 0 = 0; rw [e1]

/-- The in-degree column's block at point `t` holds rows `2000 t …` of the column. -/
theorem indeg_block (c : Dev nD) (t : Fin cfg1.N) (p : Fin 2000) (r : Fin 100000) (hr : r.val = t.val * 2000 + p.val) :
    (iblk1 V c 4 t : Vec Ideal S2000x1 .f32) (ix2 p (0 : Fin 1))
      = (V c main_v32 : S100000x1.Idx → Elt Ideal .f32) (ix2 r (0 : Fin 1)) := by
  obtain ⟨-, -, -, -, -, -, -, -, e0, e1, -⟩ := block_indices t
  unfold iblk1
  rw [View.read_apply]
  show V c main_v32 _ = V c main_v32 _
  refine congrArg _ (funext fun a => Fin.ext ?_)
  match a with
  | ⟨0, _⟩ => show win1_4.index t (0 : Fin 2) * 2000 + 1 * p.val = r.val; rw [e0, hr]; omega
  | ⟨1, _⟩ => show win1_4.index t (1 : Fin 2) * 1 + 1 * 0 = 0; rw [e1]

/-- The weights' block is the whole matrix at every point. -/
theorem W_block (c : Dev nD) (t : Fin cfg1.N) (k j : Fin 128) :
    (iblk1 V c 5 t : Vec Ideal S128x128 .f32) (ix2 k j) = (V c main_arg4 : S128x128.Idx → Elt Ideal .f32) (ix2 k j) := by
  obtain ⟨-, -, -, -, -, -, -, -, -, -, e0, e1, -⟩ := block_indices t
  unfold iblk1
  rw [View.read_apply]
  show V c main_arg4 _ = V c main_arg4 _
  refine congrArg _ (funext fun a => Fin.ext ?_)
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-- The bias's block is the whole row at every point. -/
theorem b_block (c : Dev nD) (t : Fin cfg1.N) (j : Fin 128) :
    (iblk1 V c 6 t : Vec Ideal S1x128 .f32) (ix2 (0 : Fin 1) j) = (V c main_v33 : S1x128.Idx → Elt Ideal .f32) (ix2 (0 : Fin 1) j) := by
  obtain ⟨-, -, -, -, -, -, -, -, -, -, -, -, e0, e1, -⟩ := block_indices t
  unfold iblk1
  rw [View.read_apply]
  show V c main_v33 _ = V c main_v33 _
  refine congrArg _ (funext fun a => Fin.ext ?_)
  match a with
  | ⟨0, _⟩ => show win1_6.index t (0 : Fin 2) * 1 + 1 * 0 = 0; rw [e0]
  | ⟨1, _⟩ => show win1_6.index t (1 : Fin 2) * 128 + 1 * j.val = j.val; rw [e1]; omega

section Array

variable (c : Dev nD) (x0 : (⟨Cert.ReferenceIdeal.S100000x128, .f32⟩ : BufTy).Contents (Elt Ideal))
  (x1 : (⟨Cert.ReferenceIdeal.S640000x128, .f32⟩ : BufTy).Contents (Elt Ideal))
  (x2 x3 : (⟨Cert.ReferenceIdeal.S640000, .i32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (hx : (V c main_arg0 : S100000x128.Idx → Elt Ideal .f32) = x0)
  (hagg : (V c main_v25 : S100000x128.Idx → Elt Ideal .f32) = val_main_v25 (F := Ideal) x0 x2 x3)
  (hesum : (V c main_v30 : S100000x128.Idx → Elt Ideal .f32) = val_main_v49 (F := Ideal) x1 x3 x6 x7)
  (hscale : (V c main_v31 : S100000x1.Idx → Elt Ideal .f32) = shapeCast S100000x1 (val_main_v12 (F := Ideal) x3) shapeCasts_S100000_S100000x1)
  (hdeg : (V c main_v32 : S100000x1.Idx → Elt Ideal .f32) = shapeCast S100000x1 (val_main_v3 (F := Ideal) x3) shapeCasts_S100000_S100000x1)
  (hW : (V c main_arg4 : S128x128.Idx → Elt Ideal .f32) = x4)
  (hb : (V c main_v33 : S1x128.Idx → Elt Ideal .f32) = shapeCast S1x128 x5 shapeCasts_S128_S1x128)

include hx hagg hesum hscale hdeg hW hb in
/-- Entry `(p, q)` of what the body stores at point `t` is entry `(2000 t + p, q)` of the reference's result. -/
theorem stored_entry (t : Fin cfg1.N) (p : Fin 2000) (q : Fin 128) (r : Fin 100000) (hr : r.val = t.val * 2000 + p.val) :
    k1_pay1 (F := Ideal) (iblk1 V c 0 t) (iblk1 V c 1 t) (iblk1 V c 5 t) (iblk1 V c 6 t) (iblk1 V c 3 t) (iblk1 V c 4 t) (iblk1 V c 2 t) (ix2 p q)
      = val_main_v54 (F := Ideal) x0 x1 x2 x3 x4 x5 x6 x7 (ix2 r q) := by
  rw [stored_apply, reference_apply]
  have hbias : (iblk1 V c 6 t : Vec Ideal S1x128 .f32) (ix2 (0 : Fin 1) q) = x5 (ix1 q) := by
    rw [b_block V c t q, hb]; exact shapeCast_a_1a_apply x5 _ (0 : Fin 1) q
  have hsc : (iblk1 V c 3 t : Vec Ideal S2000x1 .f32) (ix2 p (0 : Fin 1)) = val_main_v12 (F := Ideal) x3 (ix1 r) := by
    rw [scale_block V c t p r hr, hscale]; exact shapeCast_a_a1_apply (val_main_v12 (F := Ideal) x3) _ r (0 : Fin 1)
  have hd : (iblk1 V c 4 t : Vec Ideal S2000x1 .f32) (ix2 p (0 : Fin 1)) = val_main_v3 (F := Ideal) x3 (ix1 r) := by
    rw [indeg_block V c t p r hr, hdeg]; exact shapeCast_a_a1_apply (val_main_v3 (F := Ideal) x3) _ r (0 : Fin 1)
  have hw : ∀ k : Fin 128, (iblk1 V c 5 t : Vec Ideal S128x128 .f32) (ix2 k q) = x4 (ix2 k q) := fun k => by
    rw [W_block V c t k q, hW]
  have ha : ∀ k : Fin 128, (iblk1 V c 1 t : Vec Ideal S2000x128 .f32) (ix2 p k) = val_main_v25 (F := Ideal) x0 x2 x3 (ix2 r k) := fun k => by
    rw [agg_block V c t p k (ix2 r k) hr rfl, hagg]
  have hn : ∀ k : Fin 128, (iblk1 V c 0 t : Vec Ideal S2000x128 .f32) (ix2 p k) = x0 (ix2 r k) := fun k => by
    rw [nfeat_block V c t p k (ix2 r k) hr rfl, hx]
  have he : (iblk1 V c 2 t : Vec Ideal S2000x128 .f32) (ix2 p q) = val_main_v49 (F := Ideal) x1 x3 x6 x7 (ix2 r q) := by
    rw [esum_block V c t p q (ix2 r q) hr rfl, hesum]
  rw [hbias, hsc, hd, he]
  simp only [hw, ha, hn]

include hx hagg hesum hscale hdeg hW hb in
/-- What point `t` writes back is block `t` of the reference's result. -/
theorem written_back (t : Fin cfg1.N) :
    (dat1 V c).flushed 7 t
      = ((cfg1.win 7).blk t).view.read (Elt Ideal) (val_main_v54 (F := Ideal) x0 x1 x2 x3 x4 x5 x6 x7) := by
  show (cfg1.win 7).cut (grid1.coords t) ((dat1 V c).after 7 t) = _
  rw [after1_7]
  unfold out1_7
  rw [View.canon_unit_zero zero_offsets]
  simp only [View.ld_unit_zero (S := S2000x128) zero_offsets, View.ld_unit_zero (S := S128x128) zero_offsets,
    View.ld_unit_zero (S := S1x128) zero_offsets, View.ld_unit_zero (S := S2000x1) zero_offsets]
  funext y
  rw [View.read_apply]
  obtain ⟨-, -, -, -, -, -, -, -, -, -, -, -, -, -, e0, e1⟩ := block_indices t
  have hN : cfg1.N = 50 := N_1
  have ht : t.val < 50 := hN ▸ t.isLt
  have hp : (y 0).val < 2000 := (win1_7.xinj (grid1.coords t) y 0).isLt
  have hq : (y 1).val < 128 := (win1_7.xinj (grid1.coords t) y 1).isLt
  have hy : (win1_7.xinj (grid1.coords t) y : S2000x128.Idx) = ix2 (⟨(y 0).val, hp⟩ : Fin 2000) (⟨(y 1).val, hq⟩ : Fin 128) :=
    funext fun a => by match a with | ⟨0, _⟩ => rfl | ⟨1, _⟩ => rfl
  have hi : (((cfg1.win 7).blk t).view.emb y : S100000x128.Idx)
      = ix2 (⟨t.val * 2000 + (y 0).val, by omega⟩ : Fin 100000) (⟨(y 1).val, hq⟩ : Fin 128) :=
    funext fun a => Fin.ext (by
      match a with
      | ⟨0, _⟩ => show win1_7.index t (0 : Fin 2) * 2000 + 1 * (y 0).val = t.val * 2000 + (y 0).val; rw [e0]; omega
      | ⟨1, _⟩ => show win1_7.index t (1 : Fin 2) * 128 + 1 * (y 1).val = (y 1).val; rw [e1]; omega)
  show k1_pay1 (F := Ideal) (iblk1 V c 0 t) (iblk1 V c 1 t) (iblk1 V c 5 t) (iblk1 V c 6 t) (iblk1 V c 3 t) (iblk1 V c 4 t) (iblk1 V c 2 t) (win1_7.xinj (grid1.coords t) y)
    = val_main_v54 (F := Ideal) x0 x1 x2 x3 x4 x5 x6 x7 (((cfg1.win 7).blk t).view.emb y : S100000x128.Idx)
  exact (congrArg _ hy).trans ((stored_entry V c x0 x1 x2 x3 x4 x5 x6 x7 hx hagg hesum hscale hdeg hW hb t _ _ _ rfl).trans
    (congrArg (val_main_v54 (F := Ideal) x0 x1 x2 x3 x4 x5 x6 x7) hi.symm))

/-- Every row of the array lies in the block of the point `row / 2000`. -/
theorem rows_covered (i : ((cfg1.win 7).arr.view.loc (c.tc : Thread nD τ)).2.ty.Idx) :
    ∃ t : Fin cfg1.N, (cfg1.win 7).flush t = true ∧ i ∈ ((cfg1.win 7).blk t).view.set := by
  have hi0 : (i 0 : Nat) < 100000 := (i 0).isLt
  have hi1 : (i 1 : Nat) < 128 := (i 1).isLt
  have hN : cfg1.N = 50 := N_1
  have hlt : (i 0 : Nat) / 2000 < cfg1.N := by rw [hN]; omega
  refine ⟨⟨(i 0 : Nat) / 2000, hlt⟩, flush1_7 _, ?_⟩
  obtain ⟨-, -, -, -, -, -, -, -, -, -, -, -, -, -, e0, e1⟩ := block_indices ⟨(i 0 : Nat) / 2000, hlt⟩
  show i ∈ ((View.whole main_v34).slice (win1_7.rect ⟨(i 0 : Nat) / 2000, hlt⟩)).set
  rw [View.set_slice_whole, Rect.mem_set_unit]
  intro a
  match a with
  | ⟨0, _⟩ =>
    show win1_7.index ⟨(i 0 : Nat) / 2000, hlt⟩ (0 : Fin 2) * 2000 ≤ (i 0 : Nat) ∧ (i 0 : Nat) < win1_7.index ⟨(i 0 : Nat) / 2000, hlt⟩ (0 : Fin 2) * 2000 + 2000
    rw [e0]; show (i 0 : Nat) / 2000 * 2000 ≤ (i 0 : Nat) ∧ (i 0 : Nat) < (i 0 : Nat) / 2000 * 2000 + 2000; omega
  | ⟨1, _⟩ =>
    show win1_7.index ⟨(i 0 : Nat) / 2000, hlt⟩ (1 : Fin 2) * 128 ≤ (i 1 : Nat) ∧ (i 1 : Nat) < win1_7.index ⟨(i 0 : Nat) / 2000, hlt⟩ (1 : Fin 2) * 128 + 128
    rw [e1]; omega

include hx hagg hesum hscale hdeg hW hb in
/-- The result array after the second pallas_call: the reference's result of the arguments. -/
theorem result_array :
    ((dat1 V c).arrAt 7 cfg1.N : S100000x128.Idx → Elt Ideal .f32)
      = val_main_v54 (F := Ideal) x0 x1 x2 x3 x4 x5 x6 x7 :=
  (dat1 V c).arrAt_eq_of_cover 7 (val_main_v54 (F := Ideal) x0 x1 x2 x3 x4 x5 x6 x7)
    (fun t _ => written_back V c x0 x1 x2 x3 x4 x5 x6 x7 hx hagg hesum hscale hdeg hW hb t) (rows_covered c)

end Array

end Cert.KernelIdeal.NodeCombine

end
-- ==== Proof.KernelValue.lean ====
/-
  The idealized kernel program's run with its result as ONE function of the arguments.

  The result buffer is the second pallas_call's output array. That pallas_call reads the node features, the weights
  and the bias as launched, the aggregate, the destination scale and the in-degree as the host lines left them, and
  the edge sum, which is the host's scatter-add of the first pallas_call's output array; the first pallas_call's
  array is the reference's edge linear map, so the edge sum is the reference's, and the second pallas_call's array is
  the reference's last stage of the eight arguments.
-/
import proofs.«166695_j6605659701694_1_alg».proof.Proof.KernelRun
import proofs.«166695_j6605659701694_1_alg».proof.Proof.HostValues
import proofs.«166695_j6605659701694_1_alg».proof.Proof.EdgeLinear
import proofs.«166695_j6605659701694_1_alg».proof.Proof.NodeCombine

set_option maxRecDepth 16384

noncomputable section

open Idealize.ShloMosaic Idealize.ShloMosaic.TcCoe Idealize.SL.Sem

namespace Cert.KernelIdeal.KernelValue

open Cert.KernelIdeal Cert.KernelIdeal.Gen

variable (m : (ℓ : Loc nD τ sig) → Buf (Elt Ideal) ℓ) (ρ : Dev nD → PrngReg)

/-- The reference's result, of the kernel program's launch contents. -/
abbrev result (c : Dev nD) : S100000x128.Idx → Elt Ideal .f32 :=
  Cert.ReferenceIdeal.Read.val_main_v54 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What the result buffer holds at the last boundary of the run. -/
theorem result_eq (c : Dev nD) :
    (W8 m ρ c (Proc.devRef .tc main_v34) : S100000x128.Idx → Elt Ideal .f32) = result m c := by
  have hE := Cert.KernelIdeal.EdgeLinear.result_array (V5 m ρ) c _ _ _
    (Cert.KernelIdeal.HostValues.entry0_efeat m ρ c) (Cert.KernelIdeal.HostValues.entry0_We m ρ c)
    (Cert.KernelIdeal.HostValues.entry0_be m ρ c)
  exact (W8_arr m ρ c 7).trans (Cert.KernelIdeal.NodeCombine.result_array (V7 m ρ) c _ _ _ _ _ _ _ _
    (Cert.KernelIdeal.HostValues.entry1_nfeat m ρ c) (Cert.KernelIdeal.HostValues.entry1_agg m ρ c)
    (Cert.KernelIdeal.HostValues.entry1_esum m ρ c hE) (Cert.KernelIdeal.HostValues.entry1_normdst m ρ c)
    (Cert.KernelIdeal.HostValues.entry1_indeg m ρ c) (Cert.KernelIdeal.HostValues.entry1_W m ρ c)
    (Cert.KernelIdeal.HostValues.entry1_b m ρ c))

/-- The run, read: the result buffer at the reference's function of the arguments, the arguments unchanged. -/
theorem run : θ_run defs (onTc (τ := τ) (main (F := Ideal))) ⟨m, fun _ => 0, ρ⟩ (fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩)
    (Cert.KernelIdeal.GenRun.run_main m ρ)

end Cert.KernelIdeal.KernelValue

end
-- ==== Proof.lean ====
/-
  The certificate of the graph-convolution layer: the Pallas program (two pallas_calls among host lines) against its
  jnp reference, over the extended reals.

  Both programs compute, for every node `r` and output lane `j`,
    (∑ k agg (r, k) · W (k, j)) · deg(r)^(-1/2) + b j
      + (∑ k x (r, k) · W (k, j) + b j) / (deg r + 1)
      + esum (r, j) / max(1, deg r),
  where `deg` is the in-degree (a scatter-add of ones), `agg` the scatter-add over the destination rows of the
  source-scaled features gathered along the edges, and `esum` the scatter-add over the destination rows of
  `efeat · We + be`. The host lines that make `deg`, its powers and `agg` are the same operations in the two
  programs and are matched, never opened. The kernel program makes `efeat · We + be` in its first pallas_call, eighty
  row blocks, and the final combination in its second, fifty row blocks; the reference makes both with whole-array
  operations. Over the extended reals a matrix product into a zero accumulator and a `dot_general` are the same plain
  sum, a change of float format is the identity, and the kernel's and the host's quotients are one function, so each
  block entry is the reference's entry and no algebraic law beyond that is used: the precondition is never opened.

  The frames of the two kernel programs are the generated ones; the reference's frame is its generated run; the ideal
  pass rewrote nothing, so `preserves` has nothing to state.
-/
import proofs.«166695_j6605659701694_1_alg».proof.Defs
import proofs.«166695_j6605659701694_1_alg».proof.Proof.Gen.Kernel
import proofs.«166695_j6605659701694_1_alg».proof.Proof.Gen.Kernel.Skeleton
import proofs.«166695_j6605659701694_1_alg».proof.Proof.Gen.Kernel.Launch
import proofs.«166695_j6605659701694_1_alg».proof.Proof.Gen.Kernel.Points
import proofs.«166695_j6605659701694_1_alg».proof.Proof.Gen.Kernel.Frame
import proofs.«166695_j6605659701694_1_alg».proof.Proof.Gen.KernelIdeal
import proofs.«166695_j6605659701694_1_alg».proof.Proof.Gen.KernelIdeal.Skeleton
import proofs.«166695_j6605659701694_1_alg».proof.Proof.Gen.KernelIdeal.Launch
import proofs.«166695_j6605659701694_1_alg».proof.Proof.Gen.KernelIdeal.Points
import proofs.«166695_j6605659701694_1_alg».proof.Proof.Gen.KernelIdeal.Frame
import proofs.«166695_j6605659701694_1_alg».proof.Proof.Gen.ReferenceIdeal
import proofs.«166695_j6605659701694_1_alg».proof.Proof.Gen.ReferenceIdeal.Run
import proofs.«166695_j6605659701694_1_alg».proof.Proof.Gen.ReferenceIdeal.Read
import proofs.«166695_j6605659701694_1_alg».proof.Proof.Gen.Pre_finite_inputs
import proofs.«166695_j6605659701694_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at the reference's last stage of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v54_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
